-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x32 : Shape := ⟨2, ![100000, 32]⟩
abbrev S5000x32 : Shape := ⟨2, ![5000, 32]⟩
abbrev S1700000x32 : Shape := ⟨2, ![1700000, 32]⟩
abbrev S1x32 : Shape := ⟨2, ![1, 32]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x32, .f32⟩
  | .hbm, ⟨79, _⟩ => ⟨S1700000x1, .f32⟩
  | .hbm, ⟨80, _⟩ => ⟨S1700000x32, .f32⟩
  | .hbm, ⟨81, _⟩ => ⟨S1700000x32, .f32⟩
  | .hbm, ⟨82, _⟩ => ⟨S_, .f32⟩
  | .hbm, ⟨83, _⟩ => ⟨S100000x32, .f32⟩
  | .hbm, ⟨84, _⟩ => ⟨S1700000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S100000x32, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x32, .f32⟩
  | .local _ .vmem, ⟨8, _⟩ => ⟨S5000x32, .f32⟩
  | .local _ .vmem, ⟨9, _⟩ => ⟨S5000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x32_S5000x32_1_0_0_1_n_n_wf : DotDims.WF S5000x64 S64x32 S5000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S100000x32.size a
  hwx1_2 : ∀ i : grid1.Coords, EltTy.bits .f32 = 32 ∨ (Rect.block (s := S100000x32) S5000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S100000x64 : Shape := ⟨2, ![100000, 64]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S100000x64, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | .hbm, ⟨69, _⟩ => ⟨S100000x32, .f32⟩
  | .hbm, ⟨70, _⟩ => ⟨S_, .f32⟩
  | .hbm, ⟨71, _⟩ => ⟨S1700000, .f32⟩
  | .hbm, ⟨72, _⟩ => ⟨S_, .f32⟩
  | .hbm, ⟨73, _⟩ => ⟨S100000, .f32⟩
  | .hbm, ⟨74, _⟩ => ⟨S1700000x1, .i32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .i1⟩
  | .hbm, ⟨79, _⟩ => ⟨S100000, .f32⟩
  | .hbm, ⟨80, _⟩ => ⟨S_, .f32⟩
  | .hbm, ⟨81, _⟩ => ⟨S_, .f32⟩
  | .hbm, ⟨82, _⟩ => ⟨S100000, .f32⟩
  | .hbm, ⟨83, _⟩ => ⟨S100000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S_, .i32⟩
  | .hbm, ⟨94, _⟩ => ⟨S1700000, .i32⟩
  | .hbm, ⟨95, _⟩ => ⟨S1700000, .i1⟩
  | .hbm, ⟨96, _⟩ => ⟨S_, .i32⟩
  | .hbm, ⟨97, _⟩ => ⟨S1700000, .i32⟩
  | .hbm, ⟨98, _⟩ => ⟨S1700000, .i32⟩
  | .hbm, ⟨99, _⟩ => ⟨S1700000, .i32⟩
  | .hbm, ⟨100, _⟩ => ⟨S1700000x1, .i32⟩
  | .hbm, ⟨101, _⟩ => ⟨S1700000, .f32⟩
  | .hbm, ⟨102, _⟩ => ⟨S1700000, .f32⟩
  | .hbm, ⟨103, _⟩ => ⟨S_, .i32⟩
  | .hbm, ⟨104, _⟩ => ⟨S1700000, .i32⟩
  | .hbm, ⟨105, _⟩ => ⟨S1700000, .i1⟩
  | .hbm, ⟨106, _⟩ => ⟨S_, .i32⟩
  | .hbm, ⟨107, _⟩ => ⟨S1700000, .i32⟩
  | .hbm, ⟨108, _⟩ => ⟨S1700000, .i32⟩
  | .hbm, ⟨109, _⟩ => ⟨S1700000, .i32⟩
  | .hbm, ⟨110, _⟩ => ⟨S1700000x1, .i32⟩
  | .hbm, ⟨111, _⟩ => ⟨S1700000x32, .f32⟩
  | .hbm, ⟨112, _⟩ => ⟨S1700000x1, .f32⟩
  | .hbm, ⟨113, _⟩ => ⟨S1700000x32, .f32⟩
  | .hbm, ⟨114, _⟩ => ⟨S1700000x32, .f32⟩
  | .hbm, ⟨115, _⟩ => ⟨S_, .f32⟩
  | .hbm, ⟨116, _⟩ => ⟨S100000x32, .f32⟩
  | .hbm, ⟨117, _⟩ => ⟨S1700000x1, .i32⟩
  | .hbm, ⟨118, _⟩ => ⟨S100000x32, .f32⟩
  | .hbm, ⟨119, _⟩ => ⟨S1x32, .f32⟩
  | .hbm, ⟨120, _⟩ => ⟨S100000x32, .f32⟩
  | .hbm, ⟨121, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.Spec.lean ====
/-
  The two-layer graph convolution as one function of the argument arrays.

  With `N = 100000` nodes and `E = 1600000` given edges, every node also gets a self loop: the edge list's two rows,
  each followed by `0 … N − 1`, are the `E + N` source and destination endpoints. A node's degree is the number of
  edges arriving at it (a sum of ones scattered to the destinations); `dinv = deg^(−1/2)` where the degree is
  positive and `0` elsewhere; an edge's weight is `dinv[src] · dinv[dst]`. One layer multiplies the node features by
  its weight matrix, gathers the product's rows at the sources, scales each by its edge's weight, adds them up
  at the destinations and adds the bias; the first layer is followed by `max(·, 0)`.
  Indices are read as jnp reads them: a negative index counts from the end (`i + N`).
  Every stage is the host operations' own term, so that the program that hands the two products to a kernel and
  the one that computes them on the host are this same function with the product left as a parameter.
-/
import proofs.«162906_j37177236914410_1_alg».proof.Proof.Gen.KernelIdeal

noncomputable section

namespace Cert.KernelIdeal.Spec

open Idealize.ShloMosaic Cert.KernelIdeal Cert.KernelIdeal.Gen

variable {F : FTy → Type} [FloatOps F]

/-- The sources: row 0 of the edge list, then one self loop per node. -/
def srcOf (ei : (⟨S2x1600000, .i32⟩ : BufTy).Contents (Elt F)) : (⟨S1700000, .i32⟩ : BufTy).Contents (Elt F) :=
  concatenate S1700000 0
    [⟨S1600000, shapeCast S1600000 (extractStridedSlice S1x1600000 ![0, 0] ei slices_S2x1600000_S1x1600000_0_0) shapeCasts_S1x1600000_S1600000⟩,
     ⟨S100000, iotaInDim S100000 32 0⟩] concatenates_S1600000_S100000_S1700000_d0

/-- The destinations: row 1 of the edge list, then one self loop per node. -/
def dstOf (ei : (⟨S2x1600000, .i32⟩ : BufTy).Contents (Elt F)) : (⟨S1700000, .i32⟩ : BufTy).Contents (Elt F) :=
  concatenate S1700000 0
    [⟨S1600000, shapeCast S1600000 (extractStridedSlice S1x1600000 ![1, 0] ei slices_S2x1600000_S1x1600000_1_0) shapeCasts_S1x1600000_S1600000⟩,
     ⟨S100000, iotaInDim S100000 32 0⟩] concatenates_S1600000_S100000_S1700000_d0

/-- An index vector as a gather reads it: a negative entry `i` stands for `i + 100000`; laid out as a column. -/
def wrap (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- A node's degree: ones added up at the destinations. -/
def deg (ei : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dstOf ei))
    (broadcastInDim S1700000 ![] bcast_S_S1700000 (constant S_ .f32 0x3F800000#32))

/-- `deg^(−1/2)` where the degree is positive, `0` elsewhere. -/
def dinv (ei : (⟨S2x1600000, .i32⟩ : BufTy).Contents (Elt F)) : (⟨S100000, .f32⟩ : BufTy).Contents (Elt F) :=
  select (cmpf (F := F) .ogt (deg ei) (broadcastInDim S100000 ![] bcast_S_S100000 (constant S_ .f32 0x00000000#32)))
    (Host.rsqrt (deg ei))
    (broadcastInDim S100000 ![] bcast_S_S100000 (constant S_ .f32 0x00000000#32))

/-- An edge's weight: `dinv` at its source times `dinv` at its destination. -/
def norm (ei : (⟨S2x1600000, .i32⟩ : BufTy).Contents (Elt F)) : (⟨S1700000, .f32⟩ : BufTy).Contents (Elt F) :=
  mulf (Host.gather gather_S100000_S1700000x1_S1700000_n_0_n_n_0_1_1 (dinv ei) (wrap (srcOf ei)))
    (Host.gather gather_S100000_S1700000x1_S1700000_n_0_n_n_0_1_1 (dinv ei) (wrap (dstOf ei)))

/-- Layer 1 after its product `h`: rows gathered at the sources, scaled by the edge weights, added up at the
    destinations, plus the bias. -/
def agg64 (h : (⟨S100000x64, .f32⟩ : BufTy).Contents (Elt F)) (ei : (⟨S2x1600000, .i32⟩ : BufTy).Contents (Elt F))
    (b : (⟨S64, .f32⟩ : BufTy).Contents (Elt F)) : (⟨S100000x64, .f32⟩ : BufTy).Contents (Elt F) :=
  addf
    (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 (dstOf ei))
      (mulf (Host.gather gather_S100000x64_S1700000x1_S1700000x64_1_0_n_n_0_1_164 h (wrap (srcOf ei)))
        (broadcastInDim S1700000x64 ![0, 1] bcast_S1700000x1_S1700000x64_0_1
          (broadcastInDim S1700000x1 ![0] bcast_S1700000_S1700000x1_0 (norm ei)))))
    (broadcastInDim S100000x64 ![0, 1] bcast_S1x64_S100000x64_0_1 (broadcastInDim S1x64 ![1] bcast_S64_S1x64_1 b))

/-- `max(·, 0)`. -/
def relu64 (x : (⟨S100000x64, .f32⟩ : BufTy).Contents (Elt F)) : (⟨S100000x64, .f32⟩ : BufTy).Contents (Elt F) :=
  maximumf x (broadcastInDim S100000x64 ![] bcast_S_S100000x64 (constant S_ .f32 0x00000000#32))

/-- Layer 2 after its product `h`. -/
def agg32 (h : (⟨S100000x32, .f32⟩ : BufTy).Contents (Elt F)) (ei : (⟨S2x1600000, .i32⟩ : BufTy).Contents (Elt F))
    (b : (⟨S32, .f32⟩ : BufTy).Contents (Elt F)) : (⟨S100000x32, .f32⟩ : BufTy).Contents (Elt F) :=
  addf
    (Host.scatterAdd scatter_S100000x32_S1700000x1_S1700000x32_1_0_0_1
      (broadcastInDim S100000x32 ![] bcast_S_S100000x32 (constant S_ .f32 0x00000000#32))
      (broadcastInDim S1700000x1 ![0] bcast_S1700000_S1700000x1_0 (dstOf ei))
      (mulf (Host.gather gather_S100000x32_S1700000x1_S1700000x32_1_0_n_n_0_1_132 h (wrap (srcOf ei)))
        (broadcastInDim S1700000x32 ![0, 1] bcast_S1700000x1_S1700000x32_0_1
          (broadcastInDim S1700000x1 ![0] bcast_S1700000_S1700000x1_0 (norm ei)))))
    (broadcastInDim S100000x32 ![0, 1] bcast_S1x32_S100000x32_0_1 (broadcastInDim S1x32 ![1] bcast_S32_S1x32_1 b))

/-- The whole network, the two products' dimension records left as parameters. -/
def gcn (d₁ : DotDims S100000x128 S128x64 S100000x64) (d₂ : DotDims S100000x64 S64x32 S100000x32)
    (x : (⟨S100000x128, .f32⟩ : BufTy).Contents (Elt F)) (ei : (⟨S2x1600000, .i32⟩ : BufTy).Contents (Elt F))
    (W1 : (⟨S128x64, .f32⟩ : BufTy).Contents (Elt F)) (b1 : (⟨S64, .f32⟩ : BufTy).Contents (Elt F))
    (W2 : (⟨S64x32, .f32⟩ : BufTy).Contents (Elt F)) (b2 : (⟨S32, .f32⟩ : BufTy).Contents (Elt F)) :
    (⟨S100000x32, .f32⟩ : BufTy).Contents (Elt F) :=
  agg32 (Host.dotGeneral d₂ none (relu64 (agg64 (Host.dotGeneral d₁ none x W1) ei b1)) W2) ei b2

end Cert.KernelIdeal.Spec

end
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibRowBlock.lean ====
import Idealize.ShloMosaic.PureOps.Ideal.Laws
import Idealize.ShloMosaic.Lib.ValueIdx
import Idealize.ShloMosaic.Lib.Layout
import Idealize.ShloMosaic.Lib.ValueLayout
import Idealize.ShloMosaic.Lib.Pipeline.Value
import proofs.«162906_j37177236914410_1_alg».proof.Proof.LibPlainDot

noncomputable section

open scoped BigOperators

/-! # Row blocks of two-axis arrays

An array of `M = T · R` rows cut into `T` blocks of `R` rows (`Layout.block … 0 T t`: rows `t·R … t·R + R − 1`).
Every operation that works row by row commutes with taking a row block: the block of the result is the
operation applied to the blocks. Stated here for the operations of a dense layer: a product with a matrix
shared by all rows, a concatenation along the columns, a column slice, a bias row added to every row, a
constant, and the pointwise operations. With these, a computation on one block of rows is read as the
block of the same computation on the whole array. -/

namespace Cert.RowBlock

open Idealize.ShloMosaic Idealize.ShloMosaic.ValueIdx Idealize.ShloMosaic.Layout

variable {R M T : ℕ} {α : Type}

/-- Where entry `(r, q)` of block `t` lies in the whole array: row `t·R + r`, column `q`. -/
theorem idx_rows {N : ℕ} (hN : Tiles ⟨2, ![R, N]⟩ ⟨2, ![M, N]⟩ 0 T) (t : Fin T) (y : (⟨2, ![R, N]⟩ : Shape).Idx) :
    (hN.idx t y 0).val = t.val * R + (y 0).val ∧ (hN.idx t y 1).val = (y 1).val := ⟨rfl, rfl⟩

/-- The unit word is the real number one. -/
theorem ofBits_one : Ideal.ofBits .f32 0x3F800000#32 = 1 := by
  simp [Ideal.ofBits, Ideal.ieee, -EReal.coe_mul]; norm_num

/-! ## A product with a shared matrix -/

/-- Rows `t·R …` of `X · W` are (rows `t·R …` of `X`) `· W`: entry `(r, c)` of either is
    `∑ k, X (t·R + r, k) · W (k, c)`. The block's product is a matrix-unit product into the zero accumulator,
    the whole array's a host product; on the extended reals both are that sum. -/
theorem dot_rows {K N : ℕ} {φ₁ φ₂ : FTy}
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (block ⟨2, ![R, K]⟩ ⟨2, ![M, K]⟩ 0 T t X hK) W (constant ⟨2, ![R, N]⟩ .f32 0x00000000#32)
      = block ⟨2, ![R, N]⟩ ⟨2, ![M, N]⟩ 0 T t (Host.dotGeneral d₂ p₂ X W) hN := by
  funext y
  refine (Cert.PlainDot.matmul_zero_apply d₁ hd₁ p₁ _ W y).trans ?_
  refine Eq.trans ?_ (Cert.PlainDot.dotGeneral_apply d₂ hd₂ p₂ .single X W (hN.idx t y)).symm
  refine Finset.sum_congr rfl fun k _ => ?_
  have e1 : hK.idx t (ix2 (y 0) k) = ix2 (hN.idx t y 0) k := by
    funext a
    match a with
    | ⟨0, _⟩ => exact Fin.ext rfl
    | ⟨1, _⟩ => exact Fin.ext rfl
  have e2 : (ix2 k (y 1) : (⟨2, ![K, N]⟩ : Shape).Idx) = ix2 k (hN.idx t y 1) := by
    funext a
    match a with
    | ⟨0, _⟩ => exact Fin.ext rfl
    | ⟨1, _⟩ => exact Fin.ext rfl
  rw [block_apply, e1, e2]
  rfl

/-- The same with both operands first rounded to a narrower format, which on the extended reals changes nothing. -/
theorem dot_rows_trunc {K N : ℕ} {φ₁ φ₂ ψ₁ ψ₂ : FTy} (h₁ : ψ₁.bits < φ₁.bits) (h₂ : ψ₂.bits < φ₂.bits)
    (d₁ : DotDims ⟨2, ![R, K]⟩ ⟨2, ![K, N]⟩ ⟨2, ![R, N]⟩) (hd₁ : d₁ = DotDims.plain R K N)
    (d₂ : DotDims ⟨2, ![M, K]⟩ ⟨2, ![K, N]⟩ ⟨2, ![M, N]⟩) (hd₂ : d₂ = DotDims.plain M K N)
    (hK : Tiles ⟨2, ![R, K]⟩ ⟨2, ![M, K]⟩ 0 T) (hN : Tiles ⟨2, ![R, N]⟩ ⟨2, ![M, N]⟩ 0 T)
    (p₁ p₂ : Option ContractPrecision) (t : Fin T)
    (X : FVec Ideal ⟨2, ![M, K]⟩ φ₁) (W : FVec Ideal ⟨2, ![K, N]⟩ φ₂) :
    matmul d₁ p₁ (truncf ψ₁ (block ⟨2, ![R, K]⟩ ⟨2, ![M, K]⟩ 0 T t X hK) h₁) (truncf ψ₂ W h₂) (constant ⟨2, ![R, N]⟩ .f32 0x00000000#32)
      = block ⟨2, ![R, N]⟩ ⟨2, ![M, N]⟩ 0 T t (Host.dotGeneral d₂ p₂ X W) hN :=
  dot_rows (φ₁ := φ₁) (φ₂ := φ₂) d₁ hd₁ d₂ hd₂ hK hN p₁ p₂ t X W

/-! ## Pointwise operations -/

section Pointwise
variable {N : ℕ} {φ : FTy} (hN : Tiles ⟨2, ![R, N]⟩ ⟨2, ![M, N]⟩ 0 T) (t : Fin T)
  (X Y : FVec Ideal ⟨2, ![M, N]⟩ φ)

theorem addf_rows : addf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (addf X Y) hN := rfl
theorem subf_rows : subf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (subf X Y) hN := rfl
theorem mulf_rows : mulf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (mulf X Y) hN := rfl
theorem maximumf_rows : maximumf (block ⟨2, ![R, N]⟩ ⟨2, ![M, N]⟩ 0 T t X hN) (block ⟨2, ![R, N]⟩ ⟨2, ![M, N]⟩ 0 T t Y hN)
    = block ⟨2, ![R, N]⟩ ⟨2, ![M, N]⟩ 0 T t (maximumf X Y) hN := rfl
/-- The kernel's hyperbolic tangent and the host's are one function on the extended reals. -/
theorem tanh_rows : tanh (block ⟨2, ![R, N]⟩ ⟨2, ![M, N]⟩ 0 T t X hN)
    = block ⟨2, ![R, N]⟩ ⟨2, ![M, N]⟩ 0 T t (Host.tanh X) hN := rfl
/-- The logistic function is `1 / (1 + e^(−x))`, which the host spells out with the unit word for `1`. -/
theorem logistic_rows (hb : (⟨0, ![]⟩ : Shape).BroadcastsInDim ⟨2, ![M, N]⟩ (![] : Fin 0 → Fin 2)) :
    logistic (block ⟨2, ![R, N]⟩ ⟨2, ![M, N]⟩ 0 T t (X : FVec Ideal ⟨2, ![M, N]⟩ .f32) hN)
    = block ⟨2, ![R, N]⟩ ⟨2, ![M, N]⟩ 0 T t
        (Host.divf (broadcastInDim ⟨2, ![M, N]⟩ ![] hb (constant (F := Ideal) ⟨0, ![]⟩ .f32 0x3F800000#32))
          (addf (broadcastInDim ⟨2, ![M, N]⟩ ![] hb (constant (F := Ideal) ⟨0, ![]⟩ .f32 0x3F800000#32)) (Host.exp (Host.negf X)))) hN := by
  funext y
  show FloatOps.logistic (X (hN.idx t y))
    = FloatOps.hostDivf (Ideal.ofBits .f32 0x3F800000#32)
        (FloatOps.addf (Ideal.ofBits .f32 0x3F800000#32) (FloatOps.hostUnary .exp (FloatOps.hostNegf (X (hN.idx t y)))))
  rw [ofBits_one]
  rfl
end Pointwise

/-! ## Constants, bias rows, column slices, concatenation along the columns -/

/-- A constant array's row block is the constant block. -/
theorem splat_rows {N : ℕ} (hN : Tiles ⟨2, ![R, N]⟩ ⟨2, ![M, N]⟩ 0 T) (t : Fin T)
    (hb : (⟨0, ![]⟩ : Shape).BroadcastsInDim ⟨2, ![M, N]⟩ (![] : Fin 0 → Fin 2)) (w : BitVec 32) :
    broadcast ⟨2, ![R, N]⟩ (Scalar.ofBits (F := Ideal) .f32 w)
      = block ⟨2, ![R, N]⟩ ⟨2, ![M, N]⟩ 0 T t (broadcastInDim ⟨2, ![M, N]⟩ ![] hb (constant (F := Ideal) ⟨0, ![]⟩ .f32 w)) hN := by
  funext y
  rfl

/-- A bias row laid under every row: the block sees the same row. -/
theorem bias_rows {N : ℕ} (hN : Tiles ⟨2, ![R, N]⟩ ⟨2, ![M, N]⟩ 0 T) (t : Fin T)
    (hc : (⟨1, ![N]⟩ : Shape).ShapeCasts ⟨2, ![1, N]⟩) (hbt : (⟨2, ![1, N]⟩ : Shape).Broadcasts ⟨2, ![R, N]⟩)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (b : (⟨1, ![N]⟩ : Shape).Idx → α) :
    broadcastTo ⟨2, ![R, N]⟩ (shapeCast ⟨2, ![1, N]⟩ b hc) hbt
      = block ⟨2, ![R, N]⟩ ⟨2, ![M, N]⟩ 0 T t (broadcastInDim ⟨2, ![M, N]⟩ ![0, 1] h2 (broadcastInDim ⟨2, ![1, N]⟩ ![1] h1 b)) hN := by
  funext y
  obtain ⟨p, q, rfl⟩ : ∃ (p : Fin R) (q : Fin N), y = ix2 p q := ⟨y 0, y 1, eq_ix2 y⟩
  rw [broadcastTo_1b_ab_apply, shapeCast_a_1a_apply, block_apply]
  refine Eq.symm ?_
  refine (broadcastInDim_apply ![0, 1] h2 _ (hN.idx t (ix2 p q)) (ix2 (0 : Fin 1) q) fun a => ?_).trans ?_
  · match a with
    | ⟨0, _⟩ => rfl
    | ⟨1, _⟩ =>
      show q.val = if N = 1 then 0 else q.val
      split
      · have := q.isLt; omega
      · rfl
  · refine broadcastInDim_apply ![1] h1 b (ix2 (0 : Fin 1) q) (ix1 q) fun a => ?_
    match a with
    | ⟨0, _⟩ =>
      show q.val = if N = 1 then 0 else q.val
      split
      · have := q.isLt; omega
      · rfl

/-- Columns `o … o + N' − 1`: of the block, or the block of those columns. -/
theorem slice_rows {N N' : ℕ} (o : ℕ) (hN : Tiles ⟨2, ![R, N]⟩ ⟨2, ![M, N]⟩ 0 T) (hN' : Tiles ⟨2, ![R, N']⟩ ⟨2, ![M, N']⟩ 0 T) (t : Fin T)
    (hs : (⟨2, ![R, N]⟩ : Shape).Slices ![0, o] ⟨2, ![R, N']⟩) (hs' : (⟨2, ![M, N]⟩ : Shape).Slices ![0, o] ⟨2, ![M, N']⟩)
    (X : (⟨2, ![M, N]⟩ : Shape).Idx → α) :
    extractStridedSlice ⟨2, ![R, N']⟩ ![0, o] (block ⟨2, ![R, N]⟩ ⟨2, ![M, N]⟩ 0 T t X hN) hs
      = block ⟨2, ![R, N']⟩ ⟨2, ![M, N']⟩ 0 T t (extractStridedSlice ⟨2, ![M, N']⟩ ![0, o] X hs') hN' := by
  funext y
  show X _ = X _
  congr 1
  funext a
  match a with
  | ⟨0, _⟩ =>
    apply Fin.ext
    show t.val * R + (0 + (y 0).val) = 0 + (t.val * R + (y 0).val)
    omega
  | ⟨1, _⟩ => exact Fin.ext rfl

/-- Two arrays side by side: the block of the pair is the pair of the blocks. -/
theorem concat2_rows {N₁ N₂ N : ℕ}
    (h₁ : Tiles ⟨2, ![R, N₁]⟩ ⟨2, ![M, N₁]⟩ 0 T) (h₂ : Tiles ⟨2, ![R, N₂]⟩ ⟨2, ![M, N₂]⟩ 0 T) (hN : Tiles ⟨2, ![R, N]⟩ ⟨2, ![M, N]⟩ 0 T)
    (t : Fin T)
    (hc : Shape.Concatenates [(⟨2, ![R, N₁]⟩ : Shape), ⟨2, ![R, N₂]⟩] ⟨2, ![R, N]⟩ 1)
    (hc' : Shape.Concatenates [(⟨2, ![M, N₁]⟩ : Shape), ⟨2, ![M, N₂]⟩] ⟨2, ![M, N]⟩ 1)
    (A : (⟨2, ![M, N₁]⟩ : Shape).Idx → α) (B : (⟨2, ![M, N₂]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc
      = block ⟨2, ![R, N]⟩ ⟨2, ![M, N]⟩ 0 T t (concatenate ⟨2, ![M, N]⟩ 1 [⟨⟨2, ![M, N₁]⟩, A⟩, ⟨⟨2, ![M, N₂]⟩, B⟩] hc') hN := by
  funext y
  obtain ⟨p, q, rfl⟩ : ∃ (p : Fin R) (q : Fin N), y = ix2 p q := ⟨y 0, y 1, eq_ix2 y⟩
  have hsum : N₁ + (N₂ + (0)) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 0 (by show 0 < 2; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 0 (by show 0 < 2; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩] hc (ix2 p q) 1 (by show 1 < 2; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩] hc' (hN.idx t (ix2 p q)) 1 (by show 1 < 2; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb

/-- Four arrays side by side. -/
theorem concat4_rows {N₁ N₂ N₃ N₄ N : ℕ}
    (h₁ : Tiles ⟨2, ![R, N₁]⟩ ⟨2, ![M, N₁]⟩ 0 T) (h₂ : Tiles ⟨2, ![R, N₂]⟩ ⟨2, ![M, N₂]⟩ 0 T)
    (h₃ : Tiles ⟨2, ![R, N₃]⟩ ⟨2, ![M, N₃]⟩ 0 T) (h₄ : Tiles ⟨2, ![R, N₄]⟩ ⟨2, ![M, N₄]⟩ 0 T) (hN : Tiles ⟨2, ![R, N]⟩ ⟨2, ![M, N]⟩ 0 T)
    (t : Fin T)
    (hc : Shape.Concatenates [(⟨2, ![R, N₁]⟩ : Shape), ⟨2, ![R, N₂]⟩, ⟨2, ![R, N₃]⟩, ⟨2, ![R, N₄]⟩] ⟨2, ![R, N]⟩ 1)
    (hc' : Shape.Concatenates [(⟨2, ![M, N₁]⟩ : Shape), ⟨2, ![M, N₂]⟩, ⟨2, ![M, N₃]⟩, ⟨2, ![M, N₄]⟩] ⟨2, ![M, N]⟩ 1)
    (A : (⟨2, ![M, N₁]⟩ : Shape).Idx → α) (B : (⟨2, ![M, N₂]⟩ : Shape).Idx → α)
    (C : (⟨2, ![M, N₃]⟩ : Shape).Idx → α) (D : (⟨2, ![M, N₄]⟩ : Shape).Idx → α) :
    concatenate ⟨2, ![R, N]⟩ 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩,
        ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc
      = block ⟨2, ![R, N]⟩ ⟨2, ![M, N]⟩ 0 T t
          (concatenate ⟨2, ![M, N]⟩ 1 [⟨⟨2, ![M, N₁]⟩, A⟩, ⟨⟨2, ![M, N₂]⟩, B⟩, ⟨⟨2, ![M, N₃]⟩, C⟩, ⟨⟨2, ![M, N₄]⟩, D⟩] hc') hN := by
  funext y
  obtain ⟨p, q, rfl⟩ : ∃ (p : Fin R) (q : Fin N), y = ix2 p q := ⟨y 0, y 1, eq_ix2 y⟩
  have hsum : N₁ + (N₂ + (N₃ + (N₄ + (0)))) = N := hc.2.2
  have hq := q.isLt
  rw [block_apply]
  by_cases hc0 : q.val < N₁
  · have c0 : q.val < N₁ := hc0
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 0 (by show 0 < 4; omega) ⟨2, ![R, N₁]⟩ _ rfl rfl (0) rfl (ix2 p ⟨q.val, c0⟩) (fun b hb => ?_) (Nat.zero_add _)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 0 (by show 0 < 4; omega) ⟨2, ![M, N₁]⟩ A rfl rfl (0) rfl (h₁.idx t (ix2 p ⟨q.val, c0⟩)) (fun b hb => ?_) (Nat.zero_add _))
    match b with
    | ⟨0, _⟩ => rfl
    | ⟨1, _⟩ => exact absurd rfl hb
  by_cases hc1 : q.val < N₁ + N₂
  · have c1 : q.val - (N₁) < N₂ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 1 (by show 1 < 4; omega) ⟨2, ![R, N₂]⟩ _ rfl rfl (N₁) (by simp [List.take, List.map, List.sum_cons]; try omega) (ix2 p ⟨q.val - (N₁), c1⟩) (fun b hb => ?_) (by show N₁ + (q.val - (N₁)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 1 (by show 1 < 4; omega) ⟨2, ![M, N₂]⟩ B rfl rfl (N₁) (by simp [List.take, List.map, List.sum_cons]; try omega) (h₂.idx t (ix2 p ⟨q.val - (N₁), c1⟩)) (fun b hb => ?_) (by show N₁ + (q.val - (N₁)) = q.val; omega))
    match b with
    | ⟨0, _⟩ => rfl
    | ⟨1, _⟩ => exact absurd rfl hb
  by_cases hc2 : q.val < N₁ + N₂ + N₃
  · have c2 : q.val - (N₁ + N₂) < N₃ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 2 (by show 2 < 4; omega) ⟨2, ![R, N₃]⟩ _ rfl rfl (N₁ + N₂) (by simp [List.take, List.map, List.sum_cons]; try omega) (ix2 p ⟨q.val - (N₁ + N₂), c2⟩) (fun b hb => ?_) (by show N₁ + N₂ + (q.val - (N₁ + N₂)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 2 (by show 2 < 4; omega) ⟨2, ![M, N₃]⟩ C rfl rfl (N₁ + N₂) (by simp [List.take, List.map, List.sum_cons]; try omega) (h₃.idx t (ix2 p ⟨q.val - (N₁ + N₂), c2⟩)) (fun b hb => ?_) (by show N₁ + N₂ + (q.val - (N₁ + N₂)) = q.val; omega))
    match b with
    | ⟨0, _⟩ => rfl
    | ⟨1, _⟩ => exact absurd rfl hb
  · have c3 : q.val - (N₁ + N₂ + N₃) < N₄ := by omega
    refine (concatenate_apply_piece 1 [⟨⟨2, ![R, N₁]⟩, block ⟨2, ![R, N₁]⟩ ⟨2, ![M, N₁]⟩ 0 T t A h₁⟩, ⟨⟨2, ![R, N₂]⟩, block ⟨2, ![R, N₂]⟩ ⟨2, ![M, N₂]⟩ 0 T t B h₂⟩, ⟨⟨2, ![R, N₃]⟩, block ⟨2, ![R, N₃]⟩ ⟨2, ![M, N₃]⟩ 0 T t C h₃⟩, ⟨⟨2, ![R, N₄]⟩, block ⟨2, ![R, N₄]⟩ ⟨2, ![M, N₄]⟩ 0 T t D h₄⟩] hc (ix2 p q) 3 (by show 3 < 4; omega) ⟨2, ![R, N₄]⟩ _ rfl rfl (N₁ + N₂ + N₃) (by simp [List.take, List.map, List.sum_cons]; try omega) (ix2 p ⟨q.val - (N₁ + N₂ + N₃), c3⟩) (fun b hb => ?_) (by show N₁ + N₂ + N₃ + (q.val - (N₁ + N₂ + N₃)) = q.val; omega)).trans ?_
    · match b with
      | ⟨0, _⟩ => rfl
      | ⟨1, _⟩ => exact absurd rfl hb
    refine Eq.symm (concatenate_apply_piece 1 [⟨⟨2, ![M, N₁]⟩, A⟩, ⟨⟨2, ![M, N₂]⟩, B⟩, ⟨⟨2, ![M, N₃]⟩, C⟩, ⟨⟨2, ![M, N₄]⟩, D⟩] hc' (hN.idx t (ix2 p q)) 3 (by show 3 < 4; omega) ⟨2, ![M, N₄]⟩ D rfl rfl (N₁ + N₂ + N₃) (by simp [List.take, List.map, List.sum_cons]; try omega) (h₄.idx t (ix2 p ⟨q.val - (N₁ + N₂ + N₃), c3⟩)) (fun b hb => ?_) (by show N₁ + N₂ + N₃ + (q.val - (N₁ + N₂ + N₃)) = q.val; omega))
    match b with
    | ⟨0, _⟩ => rfl
    | ⟨1, _⟩ => exact absurd rfl hb

end Cert.RowBlock

end
-- ==== Proof.Rows.lean ====
/-
  What each of the two row-tiled products leaves in its output array.

  Both kernel regions compute a dense layer's product `X · W` twenty rows-blocks at a time: at grid point `t` the body
  reads rows `5000·t … 5000·t + 4999` of `X` and all of `W`, rounds both to bf16 (the identity on the extended reals),
  multiplies them into a zero accumulator and stores the 5000 result rows. Entry `(r, q)` of that block is
  `∑ k, X (5000·t + r, k) · W (k, q)`, which is entry `(5000·t + r, q)` of the whole product; the twenty blocks tile
  the 100000 rows, so the array ends holding the whole product `X · W` of the arrays the region was entered with.
-/
import proofs.«162906_j37177236914410_1_alg».proof.Proof.Gen.KernelIdeal.Frame
import proofs.«162906_j37177236914410_1_alg».proof.Proof.LibRowBlock
import Idealize.ShloMosaic.Lib.Pipeline.Value

set_option maxRecDepth 16384

noncomputable section

namespace Cert.KernelIdeal.Rows

open Idealize.ShloMosaic Idealize.ShloMosaic.TcCoe Idealize.ShloMosaic.Layout
open Idealize.SL.Sem
open Idealize.ShloMosaic.Pipeline (Dat Cfg Window)
open Cert.KernelIdeal Cert.KernelIdeal.Gen

/-- The whole product of layer 1, `[100000, 128] · [128, 64]`. -/
abbrev prod1 (X : FVec Ideal S100000x128 .f32) (W : FVec Ideal S128x64 .f32) : FVec Ideal S100000x64 .f32 :=
  Host.dotGeneral (DotDims.plain 100000 128 64) none X W
/-- The whole product of layer 2, `[100000, 64] · [64, 32]`. -/
abbrev prod2 (X : FVec Ideal S100000x64 .f32) (W : FVec Ideal S64x32 .f32) : FVec Ideal S100000x32 .f32 :=
  Host.dotGeneral (DotDims.plain 100000 64 32) none X W

theorem tiles128 : Tiles S5000x128 S100000x128 0 20 := by decide
theorem tiles64 : Tiles S5000x64 S100000x64 0 20 := by decide
theorem tiles32 : Tiles S5000x32 S100000x32 0 20 := by decide

theorem zero_off : (![0, 0] : Fin 2 → Nat) = fun _ => 0 := funext fun a => by fin_cases a <;> rfl

/-! ## The bodies' arithmetic on a block of rows -/

/-- Layer 1's body on rows `5000·t …` of `X` gives rows `5000·t …` of `X · W`. -/
theorem body1_rows (t : Fin 20) (X : FVec Ideal S100000x128 .f32) (W : FVec Ideal S128x64 .f32) :
    k0_pay1 (F := Ideal) (block S5000x128 S100000x128 0 20 t X tiles128) W
      = block S5000x64 S100000x64 0 20 t (prod1 X W) tiles64 :=
  Cert.RowBlock.dot_rows_trunc (R := 5000) (M := 100000) (T := 20) (K := 128) (N := 64) bitsLt_bf16_f32 bitsLt_bf16_f32
    dot_S5000x128_S128x64_S5000x64_1_0_0_1_n_n rfl (DotDims.plain 100000 128 64) rfl tiles128 tiles64 none none t X W

/-- Layer 2's body on rows `5000·t …` of `X` gives rows `5000·t …` of `X · W` (the body's cast of the block to its own
    shape changes nothing). -/
theorem body2_rows (t : Fin 20) (X : FVec Ideal S100000x64 .f32) (W : FVec Ideal S64x32 .f32) :
    k1_pay1 (F := Ideal) (block S5000x64 S100000x64 0 20 t X tiles64) W
      = block S5000x32 S100000x32 0 20 t (prod2 X W) tiles32 := by
  unfold k1_pay1
  rw [shapeCast_self]
  exact Cert.RowBlock.dot_rows_trunc (R := 5000) (M := 100000) (T := 20) (K := 64) (N := 32) bitsLt_bf16_f32 bitsLt_bf16_f32
    dot_S5000x64_S64x32_S5000x32_1_0_0_1_n_n rfl (DotDims.plain 100000 64 32) rfl tiles64 tiles32 none none t X W

/-! ## The windows' blocks as row blocks -/

/-- The printed index maps over the grid: the row-tiled windows are at block row `t`, the weight window at its one block. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A grid point as a block number. -/
abbrev pt0 (t : Fin cfg0.N) : Fin 20 := ⟨t.val, lt_of_lt_of_eq t.isLt N_0⟩
abbrev pt1 (t : Fin cfg1.N) : Fin 20 := ⟨t.val, lt_of_lt_of_eq t.isLt N_1⟩

variable (V : (c : Dev nD) → (b : Ref sig .tc) → Buf (Elt Ideal) ((c : Thread nD τ).loc b))

/-- Region 1's left window at point `t` is rows `5000·t …` of its array. -/
theorem lhs0 (c : Dev nD) (t : Fin cfg0.N) :
    (iblk0 V c 0 t : Vec Ideal S5000x128 .f32) = block S5000x128 S100000x128 0 20 (pt0 t) (V c main_arg0) tiles128 := by
  obtain ⟨e0, e1, -, -, -, -⟩ := idx_facts0 t
  funext y
  show V c main_arg0 (((cfg0.win 0).blk t).view.emb y) = V c main_arg0 (tiles128.idx (pt0 t) y)
  refine congrArg _ ?_
  funext a; apply Fin.ext
  match a with
  | ⟨0, _⟩ => show win0_0.index t (0 : Fin 2) * 5000 + 1 * (y 0).val = t.val * 5000 + (y 0).val; omega
  | ⟨1, _⟩ => show win0_0.index t (1 : Fin 2) * 128 + 1 * (y 1).val = (y 1).val; omega

/-- Its right window is the whole weight matrix at every point. -/
theorem rhs0 (c : Dev nD) (t : Fin cfg0.N) : (iblk0 V c 1 t : Vec Ideal S128x64 .f32) = V c main_arg2 := by
  obtain ⟨-, -, e2, e3, -, -⟩ := idx_facts0 t
  funext y
  show V c main_arg2 (((cfg0.win 1).blk t).view.emb y) = V c main_arg2 y
  refine congrArg _ ?_
  funext a; apply Fin.ext
  match a with
  | ⟨0, _⟩ => show win0_1.index t (0 : Fin 2) * 128 + 1 * (y 0).val = (y 0).val; omega
  | ⟨1, _⟩ => show win0_1.index t (1 : Fin 2) * 64 + 1 * (y 1).val = (y 1).val; omega

theorem lhs1 (c : Dev nD) (t : Fin cfg1.N) :
    (iblk1 V c 0 t : Vec Ideal S5000x64 .f32) = block S5000x64 S100000x64 0 20 (pt1 t) (V c main_v47) tiles64 := by
  obtain ⟨e0, e1, -, -, -, -⟩ := idx_facts1 t
  funext y
  show V c main_v47 (((cfg1.win 0).blk t).view.emb y) = V c main_v47 (tiles64.idx (pt1 t) y)
  refine congrArg _ ?_
  funext a; apply Fin.ext
  match a with
  | ⟨0, _⟩ => show win1_0.index t (0 : Fin 2) * 5000 + 1 * (y 0).val = t.val * 5000 + (y 0).val; omega
  | ⟨1, _⟩ => show win1_0.index t (1 : Fin 2) * 64 + 1 * (y 1).val = (y 1).val; omega

theorem rhs1 (c : Dev nD) (t : Fin cfg1.N) : (iblk1 V c 1 t : Vec Ideal S64x32 .f32) = V c main_arg4 := by
  obtain ⟨-, -, e2, e3, -, -⟩ := idx_facts1 t
  funext y
  show V c main_arg4 (((cfg1.win 1).blk t).view.emb y) = V c main_arg4 y
  refine congrArg _ ?_
  funext a; apply Fin.ext
  match a with
  | ⟨0, _⟩ => show win1_1.index t (0 : Fin 2) * 64 + 1 * (y 0).val = (y 0).val; omega
  | ⟨1, _⟩ => show win1_1.index t (1 : Fin 2) * 32 + 1 * (y 1).val = (y 1).val; omega

/-! ## What a point writes back, and the array after the region -/

/-- What point `t` of region 1 writes back is block `t` of the whole product. -/
theorem flushed0 (c : Dev nD) (t : Fin cfg0.N) :
    (dat0 V c).flushed 2 t = ((cfg0.win 2).blk t).view.read (Elt Ideal) (prod1 (V c main_arg0) (V c main_arg2)) := by
  show (cfg0.win 2).cut (grid0.coords t) ((dat0 V c).after 2 t) = _
  rw [after0_2]
  unfold out0_2
  rw [View.canon_unit_zero zero_off]
  simp only [View.ld_unit_zero (S := S5000x128) zero_off, View.ld_unit_zero (S := S128x64) zero_off]
  rw [lhs0 V c t, rhs0 V c t, body1_rows]
  obtain ⟨-, -, -, -, e4, e5⟩ := idx_facts0 t
  funext y
  show prod1 (V c main_arg0) (V c main_arg2) (tiles64.idx (pt0 t) y) = prod1 (V c main_arg0) (V c main_arg2) (((cfg0.win 2).blk t).view.emb y)
  refine congrArg _ ?_
  funext a; apply Fin.ext
  match a with
  | ⟨0, _⟩ => show t.val * 5000 + (y 0).val = win0_2.index t (0 : Fin 2) * 5000 + 1 * (y 0).val; omega
  | ⟨1, _⟩ => show (y 1).val = win0_2.index t (1 : Fin 2) * 64 + 1 * (y 1).val; omega

theorem flushed1 (c : Dev nD) (t : Fin cfg1.N) :
    (dat1 V c).flushed 2 t = ((cfg1.win 2).blk t).view.read (Elt Ideal) (prod2 (V c main_v47) (V c main_arg4)) := by
  show (cfg1.win 2).cut (grid1.coords t) ((dat1 V c).after 2 t) = _
  rw [after1_2]
  unfold out1_2
  rw [View.canon_unit_zero zero_off]
  simp only [View.ld_unit_zero (S := S5000x64) zero_off, View.ld_unit_zero (S := S64x32) zero_off]
  rw [lhs1 V c t, rhs1 V c t, body2_rows]
  obtain ⟨-, -, -, -, e4, e5⟩ := idx_facts1 t
  funext y
  show prod2 (V c main_v47) (V c main_arg4) (tiles32.idx (pt1 t) y) = prod2 (V c main_v47) (V c main_arg4) (((cfg1.win 2).blk t).view.emb y)
  refine congrArg _ ?_
  funext a; apply Fin.ext
  match a with
  | ⟨0, _⟩ => show t.val * 5000 + (y 0).val = win1_2.index t (0 : Fin 2) * 5000 + 1 * (y 0).val; omega
  | ⟨1, _⟩ => show (y 1).val = win1_2.index t (1 : Fin 2) * 32 + 1 * (y 1).val; omega

/-- An index of the output array is in point `t`'s block iff each coordinate is in the block's range. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl
theorem mem_blk1 (t : Fin cfg1.N) (i : S100000x32.Idx) :
    i ∈ ((cfg1.win 2).blk t).view.set ↔ ∀ a : Fin 2, win1_2.index t a * S5000x32.size a ≤ (i a).val ∧ (i a).val < win1_2.index t a * S5000x32.size a + S5000x32.size a := by
  show i ∈ ((View.whole main_v48).slice (win1_2.rect t)).set ↔ _
  rw [View.set_slice_whole, Rect.mem_set_unit]
  exact Iff.rfl

/-- Row `r` lies in the block of point `r / 5000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 5000, by rw [show cfg0.N = 20 from N_0]; omega⟩
  obtain ⟨-, -, -, -, e4, e5⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega
theorem cover1 (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  let t : Fin cfg1.N := ⟨(i 0).val / 5000, by rw [show cfg1.N = 20 from N_1]; omega⟩
  obtain ⟨-, -, -, -, e4, e5⟩ := idx_facts1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 32 ≤ (i 1).val ∧ (i 1).val < win1_2.index t (1 : Fin 2) * 32 + 32; omega

/-- After region 1 its output array holds the whole product of the arrays it was entered with. -/
theorem final0 (c : Dev nD) : (dat0 V c).arrAt 2 cfg0.N = prod1 (V c main_arg0) (V c main_arg2) :=
  (dat0 V c).arrAt_eq_of_cover 2 (prod1 (V c main_arg0) (V c main_arg2)) (fun t _ => flushed0 V c t) cover0
/-- After region 2 likewise. -/
theorem final1 (c : Dev nD) : (dat1 V c).arrAt 2 cfg1.N = prod2 (V c main_v47) (V c main_arg4) :=
  (dat1 V c).arrAt_eq_of_cover 2 (prod2 (V c main_v47) (V c main_arg4)) (fun t _ => flushed1 V c t) cover1

end Cert.KernelIdeal.Rows

end
-- ==== Proof.Walk.lean ====
/-
  The program's buffers at each boundary between a stretch of host operations and a kernel region, as stages of the
  network (Spec.lean) of the launch memory's argument arrays.

  Before the first region the host has built the endpoints, the degrees and the edge weights. The first region
  leaves the product `x · W1` in its output array and nothing else changed; the host then aggregates it, adds the
  bias and clips at zero; the second region leaves the product of that with `W2`; the host aggregates again. The
  endpoints and the edge weights, computed once, are read by both aggregations, so they are followed through
  every boundary as buffers nothing later writes.
-/
import proofs.«162906_j37177236914410_1_alg».proof.Proof.Gen.KernelIdeal.Frame
import proofs.«162906_j37177236914410_1_alg».proof.Proof.Spec
import proofs.«162906_j37177236914410_1_alg».proof.Proof.Rows
import Idealize.ShloMosaic.Lib.StableHlo.Run

set_option maxRecDepth 16384

noncomputable section

namespace Cert.KernelIdeal.Walk

open Idealize.ShloMosaic Idealize.ShloMosaic.TcCoe Idealize.ShloMosaic.StableHlo
open Idealize.SL.Sem
open Cert.KernelIdeal Cert.KernelIdeal.Gen Cert.KernelIdeal.Spec

/-- A buffer's contents after a literal stretch of host operations: one pass over the operations' results, then the
    results inside a concatenation's operand list, which that pass does not enter. -/
macro "host_results" : tactic =>
  `(tactic| (after_results_simp
             repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

section Host

variable {F : FTy → Type} [FloatOps F]
variable (m : (ℓ : Loc nD τ sig) → Buf (Elt F) ℓ) (ρ : Dev nD → PrngReg)

/-! ## Entering the first region -/

set_option maxHeartbeats 4000000 in
theorem src3 (c : Dev nD) : W3 m ρ c (Proc.devRef .tc main_v3) = srcOf (m ((c : Thread nD τ).loc main_arg1)) := by
  show StableHlo.after hostOps0_2 (StableHlo.after hostOps0_1 (StableHlo.after hostOps0 (W0 m ρ c))) (Proc.devRef .tc main_v3) = _
  host_results
  rfl
set_option maxHeartbeats 4000000 in
theorem dst3 (c : Dev nD) : W3 m ρ c (Proc.devRef .tc main_v6) = dstOf (m ((c : Thread nD τ).loc main_arg1)) := by
  show StableHlo.after hostOps0_2 (StableHlo.after hostOps0_1 (StableHlo.after hostOps0 (W0 m ρ c))) (Proc.devRef .tc main_v6) = _
  host_results
  rfl
set_option maxHeartbeats 8000000 in
theorem norm3 (c : Dev nD) : W3 m ρ c (Proc.devRef .tc main_v29) = norm (m ((c : Thread nD τ).loc main_arg1)) := by
  show StableHlo.after hostOps0_2 (StableHlo.after hostOps0_1 (StableHlo.after hostOps0 (W0 m ρ c))) (Proc.devRef .tc main_v29) = _
  host_results
  rfl
set_option maxHeartbeats 4000000 in
theorem arg0_3 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  host_results
set_option maxHeartbeats 4000000 in
theorem arg2_3 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  host_results
set_option maxHeartbeats 4000000 in
theorem arg3_3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  host_results
set_option maxHeartbeats 4000000 in
theorem arg4_3 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  host_results
set_option maxHeartbeats 4000000 in
theorem arg5_3 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  host_results

/-! ## Leaving the first region: only its output array has changed -/

theorem src4 (c : Dev nD) : W4 m ρ c (Proc.devRef .tc main_v3) = srcOf (m ((c : Thread nD τ).loc main_arg1)) :=
  (W4_of_ne m ρ c main_v3 (by decide)).trans (src3 m ρ c)
theorem dst4 (c : Dev nD) : W4 m ρ c (Proc.devRef .tc main_v6) = dstOf (m ((c : Thread nD τ).loc main_arg1)) :=
  (W4_of_ne m ρ c main_v6 (by decide)).trans (dst3 m ρ c)
theorem norm4 (c : Dev nD) : W4 m ρ c (Proc.devRef .tc main_v29) = norm (m ((c : Thread nD τ).loc main_arg1)) :=
  (W4_of_ne m ρ c main_v29 (by decide)).trans (norm3 m ρ c)
theorem arg3_4 (c : Dev nD) : W4 m ρ c (Proc.devRef .tc main_arg3) = m ((c : Thread nD τ).loc main_arg3) :=
  (W4_of_ne m ρ c main_arg3 (by decide)).trans (arg3_3 m ρ c)
theorem arg4_4 (c : Dev nD) : W4 m ρ c (Proc.devRef .tc main_arg4) = m ((c : Thread nD τ).loc main_arg4) :=
  (W4_of_ne m ρ c main_arg4 (by decide)).trans (arg4_3 m ρ c)
theorem arg5_4 (c : Dev nD) : W4 m ρ c (Proc.devRef .tc main_arg5) = m ((c : Thread nD τ).loc main_arg5) :=
  (W4_of_ne m ρ c main_arg5 (by decide)).trans (arg5_3 m ρ c)

/-! ## Entering the second region -/

set_option maxHeartbeats 8000000 in
/-- The second region's left operand: the first layer of whatever the first region left in its output array. -/
theorem hid6 (c : Dev nD) : W6 m ρ c (Proc.devRef .tc main_v47)
    = relu64 (agg64 (W4 m ρ c (Proc.devRef .tc main_v30)) (m ((c : Thread nD τ).loc main_arg1)) (m ((c : Thread nD τ).loc main_arg3))) := by
  show StableHlo.after hostOps1_1 (StableHlo.after hostOps1 (W4 m ρ c)) (Proc.devRef .tc main_v47) = _
  host_results
  rw [src4 m ρ c, dst4 m ρ c, norm4 m ρ c, arg3_4 m ρ c]
  rfl
set_option maxHeartbeats 4000000 in
theorem src6 (c : Dev nD) : W6 m ρ c (Proc.devRef .tc main_v3) = srcOf (m ((c : Thread nD τ).loc main_arg1)) := by
  show StableHlo.after hostOps1_1 (StableHlo.after hostOps1 (W4 m ρ c)) (Proc.devRef .tc main_v3) = _
  host_results
  exact src4 m ρ c
set_option maxHeartbeats 4000000 in
theorem dst6 (c : Dev nD) : W6 m ρ c (Proc.devRef .tc main_v6) = dstOf (m ((c : Thread nD τ).loc main_arg1)) := by
  show StableHlo.after hostOps1_1 (StableHlo.after hostOps1 (W4 m ρ c)) (Proc.devRef .tc main_v6) = _
  host_results
  exact dst4 m ρ c
set_option maxHeartbeats 4000000 in
theorem norm6 (c : Dev nD) : W6 m ρ c (Proc.devRef .tc main_v29) = norm (m ((c : Thread nD τ).loc main_arg1)) := by
  show StableHlo.after hostOps1_1 (StableHlo.after hostOps1 (W4 m ρ c)) (Proc.devRef .tc main_v29) = _
  host_results
  exact norm4 m ρ c
set_option maxHeartbeats 4000000 in
theorem arg4_6 (c : Dev nD) : W6 m ρ c (Proc.devRef .tc main_arg4) = m ((c : Thread nD τ).loc main_arg4) := by
  show StableHlo.after hostOps1_1 (StableHlo.after hostOps1 (W4 m ρ c)) (Proc.devRef .tc main_arg4) = _
  host_results
  exact arg4_4 m ρ c
set_option maxHeartbeats 4000000 in
theorem arg5_6 (c : Dev nD) : W6 m ρ c (Proc.devRef .tc main_arg5) = m ((c : Thread nD τ).loc main_arg5) := by
  show StableHlo.after hostOps1_1 (StableHlo.after hostOps1 (W4 m ρ c)) (Proc.devRef .tc main_arg5) = _
  host_results
  exact arg5_4 m ρ c

/-! ## Leaving the second region -/

theorem src7 (c : Dev nD) : W7 m ρ c (Proc.devRef .tc main_v3) = srcOf (m ((c : Thread nD τ).loc main_arg1)) :=
  (W7_of_ne m ρ c main_v3 (by decide)).trans (src6 m ρ c)
theorem dst7 (c : Dev nD) : W7 m ρ c (Proc.devRef .tc main_v6) = dstOf (m ((c : Thread nD τ).loc main_arg1)) :=
  (W7_of_ne m ρ c main_v6 (by decide)).trans (dst6 m ρ c)
theorem norm7 (c : Dev nD) : W7 m ρ c (Proc.devRef .tc main_v29) = norm (m ((c : Thread nD τ).loc main_arg1)) :=
  (W7_of_ne m ρ c main_v29 (by decide)).trans (norm6 m ρ c)
theorem arg5_7 (c : Dev nD) : W7 m ρ c (Proc.devRef .tc main_arg5) = m ((c : Thread nD τ).loc main_arg5) :=
  (W7_of_ne m ρ c main_arg5 (by decide)).trans (arg5_6 m ρ c)

/-! ## The result -/

set_option maxHeartbeats 8000000 in
/-- The result buffer at the end: the second layer of whatever the second region left in its output array. -/
theorem out8 (c : Dev nD) : W8 m ρ c (Proc.devRef .tc main_v64)
    = agg32 (W7 m ρ c (Proc.devRef .tc main_v48)) (m ((c : Thread nD τ).loc main_arg1)) (m ((c : Thread nD τ).loc main_arg5)) := by
  show StableHlo.after hostOps2 (W7 m ρ c) (Proc.devRef .tc main_v64) = _
  host_results
  rw [src7 m ρ c, dst7 m ρ c, norm7 m ρ c, arg5_7 m ρ c]
  rfl

end Host

/-! ## The two products, on the extended reals -/

section Products

variable (m : (ℓ : Loc nD τ sig) → Buf (Elt Ideal) ℓ) (ρ : Dev nD → PrngReg)

/-- After the first region its output array holds `x · W1`. -/
theorem prod4 (c : Dev nD) : W4 m ρ c (Proc.devRef .tc main_v30) = Rows.prod1 (m ((c : Thread nD τ).loc main_arg0)) (m ((c : Thread nD τ).loc main_arg2)) := by
  refine (W4_arr m ρ c 2).trans ((Rows.final0 (V3 m ρ) c).trans ?_)
  show Rows.prod1 (W3 m ρ c (Proc.devRef .tc main_arg0)) (W3 m ρ c (Proc.devRef .tc main_arg2)) = _
  rw [arg0_3 m ρ c, arg2_3 m ρ c]

/-- After the second region its output array holds (the hidden layer) `· W2`. -/
theorem prod7 (c : Dev nD) : W7 m ρ c (Proc.devRef .tc main_v48)
    = Rows.prod2 (relu64 (agg64 (Rows.prod1 (m ((c : Thread nD τ).loc main_arg0)) (m ((c : Thread nD τ).loc main_arg2))) (m ((c : Thread nD τ).loc main_arg1)) (m ((c : Thread nD τ).loc main_arg3)))) (m ((c : Thread nD τ).loc main_arg4)) := by
  refine (W7_arr m ρ c 2).trans ((Rows.final1 (V6 m ρ) c).trans ?_)
  show Rows.prod2 (W6 m ρ c (Proc.devRef .tc main_v47)) (W6 m ρ c (Proc.devRef .tc main_arg4)) = _
  rw [hid6 m ρ c, arg4_6 m ρ c, prod4 m ρ c]

/-- The result buffer at the end of the run is the network of the launch memory's arguments. -/
theorem result (c : Dev nD) : W8 m ρ c (Proc.devRef .tc main_v64)
    = gcn (DotDims.plain 100000 128 64) (DotDims.plain 100000 64 32) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [out8 m ρ c, prod7 m ρ c]
  rfl

end Products

end Cert.KernelIdeal.Walk

end
-- ==== Proof.RefValue.lean ====
/-
  The reference's result is the same network, its two products the host's own `dot_general`s.

  The reference's run states its result as the composition of its host operations over the argument arrays (it
  builds the edge weights twice, once per layer, from the same edge list: the same term twice). Stage by stage that
  composition is the network of Spec.lean, with the reference's dimension records for the two products.
-/
import proofs.«162906_j37177236914410_1_alg».proof.Proof.RefRun
import proofs.«162906_j37177236914410_1_alg».proof.Proof.Spec

set_option maxRecDepth 16384

noncomputable section

namespace Cert.ReferenceIdeal.RefValue

open Idealize.ShloMosaic Idealize.ShloMosaic.TcCoe Idealize.SL.Sem
open Cert.ReferenceIdeal

variable {F : FTy → Type} [FloatOps F]

set_option maxHeartbeats 4000000 in
theorem result (m : (ℓ : Loc nD τ sig) → Buf (Elt F) ℓ) (c : Dev nD) :
    Cert.ReferenceIdeal.Value.res_main_v87 m c
      = Cert.KernelIdeal.Spec.gcn dot_S100000x128_S128x64_S100000x64_1_0_0_1_n_n dot_S100000x64_S64x32_S100000x32_1_0_0_1_n_n
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.Value.res_main_v87
  rfl

end Cert.ReferenceIdeal.RefValue

end
-- ==== Proof.lean ====
/-
  A two-layer graph convolution whose two dense products run as row-tiled kernels, against the same network
  computed wholly on the host.

  Both programs build the same edge list with self loops, the same degrees and edge weights, and apply twice
  "multiply by a weight matrix, gather at the sources, scale, add up at the destinations, add the bias", with
  `max(·, 0)` between the layers. They differ only in where the two products `x · W1` and `h · W2` are computed: the
  kernel program cuts the 100000 rows into twenty blocks of 5000, rounds a block and the weight matrix to bf16 and
  multiplies them into a zero accumulator; the reference calls the host's `dot_general` on the whole arrays, and
  recomputes the edge weights for the second layer. On the extended reals rounding is the identity and both
  products are the sum over the contracted axis of the entries' products, so the row blocks of the kernel's
  result are the row blocks of the host's (Rows.lean); everything around the products is the same host
  operations on the same values (Spec.lean, Walk.lean, RefValue.lean). No law beyond that is used, so the
  precondition is never opened. The ideal pass rewrote nothing: `preserves` is trivial.
-/
import proofs.«162906_j37177236914410_1_alg».proof.Defs
import proofs.«162906_j37177236914410_1_alg».proof.Proof.Gen.Kernel
import proofs.«162906_j37177236914410_1_alg».proof.Proof.Gen.Kernel.Frame
import proofs.«162906_j37177236914410_1_alg».proof.Proof.Gen.KernelIdeal
import proofs.«162906_j37177236914410_1_alg».proof.Proof.Gen.KernelIdeal.Frame
import proofs.«162906_j37177236914410_1_alg».proof.Proof.Gen.ReferenceIdeal
import proofs.«162906_j37177236914410_1_alg».proof.Proof.Gen.Pre_finite_inputs
import proofs.«162906_j37177236914410_1_alg».proof.Proof.KernelRun
import proofs.«162906_j37177236914410_1_alg».proof.Proof.Walk
import proofs.«162906_j37177236914410_1_alg».proof.Proof.RefRun
import proofs.«162906_j37177236914410_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of the (agreeing) argument arrays in their result buffers: the kernel program
    with its two products read off the regions' output arrays, the reference with the host's products, which are
    the same arrays on the extended reals. -/
theorem algebraic : Cert.algebraic_KernelIdeal_ReferenceIdeal := by
  intro m ρ m' ρ' _ hagree
  refine ⟨fun c => Cert.KernelIdeal.Spec.gcn (DotDims.plain 100000 128 64) (DotDims.plain 100000 64 32)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Walk.result m ρ c), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5⟩ := hagree c
    rw [Cert.ReferenceIdeal.RefValue.result m' c, h0, h1, h2, h3, h4, h5]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
